-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S640000x128 .f32) (main_arg2 : IVec S640000 32) (main_arg3 : IVec S640000 32) (main_arg4 : FVec F S128x128 .f32) (main_arg5 : FVec F S128x128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 67
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x128, .f32⟩
  | .hbm, ⟨22, _⟩ => ⟨S10000x128, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S640000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000, .f32⟩
  | .hbm, ⟨60, _⟩ => ⟨S640000, .f32⟩
  | .hbm, ⟨61, _⟩ => ⟨S640000x1, .f32⟩
  | .hbm, ⟨62, _⟩ => ⟨S640000x128, .f32⟩
  | .hbm, ⟨63, _⟩ => ⟨S_, .f32⟩
  | .hbm, ⟨64, _⟩ => ⟨S10000x128, .f32⟩
  | .hbm, ⟨65, _⟩ => ⟨S640000x1, .i32⟩
  | .hbm, ⟨66, _⟩ => ⟨S10000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  shapeCasts_S640000_S640000x1 : S640000.ShapeCasts S640000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S10000x128 : S_.BroadcastsInDim S10000x128 (![] : Fin 0 → Fin S10000x128.rank)
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  gather_S10000_S640000x1_S640000_n_0_n_n_0_1_1_wf : GatherDims.WF S10000 S640000x1 S640000 [] [0] [] [0] [] 1 ![1]
  dot_S5000x128_S128x128_S5000x128_1_0_0_1_n_n_wf : DotDims.WF S5000x128 S128x128 S5000x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S640000x1.size a
  hwx0_2 : ∀ i : grid0.Coords, EltTy.bits .f32 = 32 ∨ (Rect.block (s := S640000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S640000x128.size a
  hwx0_5 : ∀ i : grid0.Coords, EltTy.bits .f32 = 32 ∨ (Rect.block (s := S640000x128) S5000x128.size (cc0_transform_5 i) (hinb0_5 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S10000x128, .f32⟩
  | .hbm, ⟨23, _⟩ => ⟨S10000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S640000x128, .f32⟩
  | .hbm, ⟨45, _⟩ => ⟨S1x128, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S640000x128, .f32⟩
  | .hbm, ⟨50, _⟩ => ⟨S640000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x1, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x1, .f32⟩
  | .hbm, ⟨69, _⟩ => ⟨S640000x1, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S10000x128, .f32⟩
  | .hbm, ⟨74, _⟩ => ⟨S640000x1, .i32⟩
  | .hbm, ⟨75, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  dot_S640000x128_S128x128_S640000x128_1_0_0_1_n_n_wf : DotDims.WF S640000x128 S128x128 S640000x128 [1] [0] [0] [1] [] []
  gather_S10000x1_S640000x1_S640000x1_1_0_n_n_0_1_11_wf : GatherDims.WF S10000x1 S640000x1 S640000x1 [1] [0] [] [0] [] 1 ![1, 1]
  scatter_S10000x128_S640000x1_S640000x128_1_0_0_1_wf : ScatterDims.WF S10000x128 S640000x1 S640000x128 [1] [0] [0] 1

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S10000x1_S640000x1_S640000x1_1_0_n_n_0_1_11 : GatherDims S10000x1 S640000x1 S640000x1 where
  offsetDims := [1]
  collapsedSliceDims := [0]
  operandBatchingDims := []
  startIndicesBatchingDims := []
  startIndexMap := [0]
  indexVectorDim := 1
  sliceSizes := ![1, 1]
  wf := gather_S10000x1_S640000x1_S640000x1_1_0_n_n_0_1_11_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.Message.lean ====
/-
  The message an edge sends, as one function of whole arrays.

  Edge e carries a feature row ef(e, ·), a gathered node term qk(e, ·) and a scale np(e, 0).  Its message is

      msg(e, j) = max (qk(e, j) + Σₖ ef(e, k) · we(k, j) + b(j), 0) · np(e, 0),

  a rectified affine map of the feature row, scaled by the edge's norm product.  The number of edges R is a
  parameter: the same formula describes one block of rows and the whole edge set, and row e of the whole array is
  row e of whichever block holds it, because the formula at row e reads row e of each row-indexed operand and
  nothing else of them.
-/
import Idealize.ShloMosaic.PureOps.Ideal
import Idealize.ShloMosaic.Lib.ValueIdx

noncomputable section

namespace Cert.EdgeMessage

open Idealize.ShloMosaic Idealize.ShloMosaic.ValueIdx

/-- The message of edge `e` at feature `j`. The zero is kept as the word it is printed as. -/
def msgAt {R : Nat} (ef qk : (⟨2, ![R, 128]⟩ : Shape).Idx → EReal) (np : (⟨2, ![R, 1]⟩ : Shape).Idx → EReal)
    (we : (⟨2, ![128, 128]⟩ : Shape).Idx → EReal) (b : (⟨1, ![128]⟩ : Shape).Idx → EReal) (e : Fin R) (j : Fin 128) : EReal :=
  max (qk (ix2 e j) + (∑ k : Fin 128, ef (ix2 e k) * we (ix2 k j)) + b (ix1 j)) (Ideal.ofBits .f32 0x00000000#32)
    * np (ix2 e (0 : Fin 1))

/-- The message array over `R` edges. -/
def msg {R : Nat} (ef qk : (⟨2, ![R, 128]⟩ : Shape).Idx → EReal) (np : (⟨2, ![R, 1]⟩ : Shape).Idx → EReal)
    (we : (⟨2, ![128, 128]⟩ : Shape).Idx → EReal) (b : (⟨1, ![128]⟩ : Shape).Idx → EReal) :
    (⟨2, ![R, 128]⟩ : Shape).Idx → EReal :=
  fun i => msgAt ef qk np we b ⟨(i 0).val, idx2_lt0 i⟩ ⟨(i 1).val, idx2_lt1 i⟩

theorem msg_apply {R : Nat} (ef qk : (⟨2, ![R, 128]⟩ : Shape).Idx → EReal) (np : (⟨2, ![R, 1]⟩ : Shape).Idx → EReal)
    (we : (⟨2, ![128, 128]⟩ : Shape).Idx → EReal) (b : (⟨1, ![128]⟩ : Shape).Idx → EReal) (e : Fin R) (j : Fin 128) :
    msg ef qk np we b (ix2 e j) = msgAt ef qk np we b e j := rfl

/-- Row `e` of the message depends on row `e` of the row-indexed operands only, and at feature `j` on column `j`
    of the weights and entry `j` of the bias only: if a block's row `p` is row `e` of the whole arrays, and the block
    sees the same weights and bias, the block's message at (p, j) is the whole message at (e, j). -/
theorem msgAt_congr {R B : Nat} (ef qk : (⟨2, ![R, 128]⟩ : Shape).Idx → EReal) (np : (⟨2, ![R, 1]⟩ : Shape).Idx → EReal)
    (ef' qk' : (⟨2, ![B, 128]⟩ : Shape).Idx → EReal) (np' : (⟨2, ![B, 1]⟩ : Shape).Idx → EReal)
    (we we' : (⟨2, ![128, 128]⟩ : Shape).Idx → EReal) (b b' : (⟨1, ![128]⟩ : Shape).Idx → EReal) (e : Fin R) (p : Fin B)
    (j : Fin 128) (hef : ∀ k : Fin 128, ef' (ix2 p k) = ef (ix2 e k)) (hqk : qk' (ix2 p j) = qk (ix2 e j))
    (hnp : np' (ix2 p (0 : Fin 1)) = np (ix2 e (0 : Fin 1))) (hwe : ∀ k : Fin 128, we' (ix2 k j) = we (ix2 k j))
    (hb : b' (ix1 j) = b (ix1 j)) :
    msgAt ef' qk' np' we' b' p j = msgAt ef qk np we b e j := by
  unfold msgAt
  rw [hqk, hnp, hb, Finset.sum_congr rfl fun k _ => by rw [hef k, hwe k]]

end Cert.EdgeMessage

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Block.lean ====
/-
  What the kernel body stores, read at an entry.

  The body loads a block of edge features x0 (5000 × 128), the weight matrix x2 (128 × 128), the matching block of
  gathered node terms x5 (5000 × 128), the bias x8 (128) and the block's column of norm products x14 (5000 × 1), and
  stores  max (x5 + x0 · x2 + b, 0) · np  over the block.  Over the extended reals the change of format before the
  matrix product is the identity and the product into a zero accumulator is the plain sum over the 128 contraction
  positions, so entry (p, q) of the stored block is the edge message of row p at feature q, with the block's own
  rows as the row-indexed operands.
-/
import proofs.«143380_j2645699854684_1_alg».proof.Proof.Gen.KernelIdeal.Skeleton
import proofs.«143380_j2645699854684_1_alg».proof.Proof.Message
import proofs.«143380_j2645699854684_1_alg».proof.Proof.LibDotPlain
import proofs.«143380_j2645699854684_1_alg».proof.Proof.LibColumn
import Idealize.ShloMosaic.Lib.ValueLayout
import Idealize.ShloMosaic.Lib.Pipeline.Value

noncomputable section

namespace Cert.KernelIdeal.Block

open Idealize.ShloMosaic Idealize.ShloMosaic.ValueIdx Cert.KernelIdeal Cert.KernelIdeal.Gen Cert.EdgeMessage

/-- The matrix product of the block of features by the weights, at (p, q): Σₖ x0(p, k) · x2(k, q). The two operands
    pass through a narrowing of format first, which changes nothing over the extended reals. -/
theorem product_apply (x0 : Vec Ideal S5000x128 .f32) (x2 : Vec Ideal S128x128 .f32) (p : Fin 5000) (q : Fin 128) :
    matmul dot_S5000x128_S128x128_S5000x128_1_0_0_1_n_n none
        (truncf .bf16 x0 bitsLt_bf16_f32 : FVec Ideal S5000x128 .bf16) (truncf .bf16 x2 bitsLt_bf16_f32 : FVec Ideal S128x128 .bf16)
        (constant S5000x128 .f32 0x00000000#32) (ix2 p q)
      = ∑ k : Fin 128, x0 (ix2 p k) * x2 (ix2 k q) :=
  Cert.LibDot.mm_plain 5000 128 128 (truncf .bf16 x0 bitsLt_bf16_f32 : FVec Ideal S5000x128 .bf16)
    (truncf .bf16 x2 bitsLt_bf16_f32 : FVec Ideal S128x128 .bf16) p q

/-- The bias, viewed as one row and repeated down the block, reads b(q) at (p, q). -/
theorem bias_apply (x8 : Vec Ideal S128 .f32) (p : Fin 5000) (q : Fin 128) :
    broadcastTo S5000x128 (shapeCast S1x128 x8 shapeCasts_S128_S1x128) broadcasts_S1x128_S5000x128 (ix2 p q) = x8 (ix1 q) :=
  (broadcastTo_1b_ab_apply (shapeCast S1x128 x8 shapeCasts_S128_S1x128) broadcasts_S1x128_S5000x128 p q).trans
    (shapeCast_a_1a_apply x8 shapeCasts_S128_S1x128 (0 : Fin 1) q)

/-- The column of norm products, repeated along the 128 features, reads np(p, 0) at (p, q). -/
theorem scale_apply (x14 : Vec Ideal S5000x1 .f32) (p : Fin 5000) (q : Fin 128) :
    broadcastTo S5000x128 (shapeCast S5000x1 x14 shapeCasts_S5000x1_S5000x1) broadcasts_S5000x1_S5000x128 (ix2 p q)
      = x14 (ix2 p (0 : Fin 1)) :=
  (Cert.LibColumn.broadcastTo_a1_ab_apply (shapeCast S5000x1 x14 shapeCasts_S5000x1_S5000x1) broadcasts_S5000x1_S5000x128 p q).trans
    (congrFun (shapeCast_self x14 shapeCasts_S5000x1_S5000x1) _)

/-- THE STORED VALUE at (p, q) is the message of the block's row p at feature q. -/
theorem pay_apply (x0 : Vec Ideal S5000x128 .f32) (x2 : Vec Ideal S128x128 .f32) (x5 : Vec Ideal S5000x128 .f32)
    (x8 : Vec Ideal S128 .f32) (x14 : Vec Ideal S5000x1 .f32) (p : Fin 5000) (q : Fin 128) :
    k0_pay1 (F := Ideal) x0 x2 x5 x8 x14 (ix2 p q) = msgAt (R := 5000) x0 x5 x14 x2 x8 p q := by
  unfold k0_pay1 msgAt
  simp only [mulf_apply, maximumf_apply, addf_apply, broadcast_apply]
  rw [product_apply, bias_apply, scale_apply, shapeCast_self]
  rfl

/-- The stored block is the message array of the block's operands. -/
theorem pay_eq (x0 : Vec Ideal S5000x128 .f32) (x2 : Vec Ideal S128x128 .f32) (x5 : Vec Ideal S5000x128 .f32)
    (x8 : Vec Ideal S128 .f32) (x14 : Vec Ideal S5000x1 .f32) :
    k0_pay1 (F := Ideal) x0 x2 x5 x8 x14 = msg (R := 5000) x0 x5 x14 x2 x8 := by
  funext i
  obtain ⟨p, q, rfl⟩ : ∃ (p : Fin 5000) (q : Fin 128), i = ix2 p q := ⟨i 0, i 1, eq_ix2 i⟩
  exact pay_apply x0 x2 x5 x8 x14 p q

end Cert.KernelIdeal.Block

end
-- ==== Proof.Region.lean ====
/-
  The array the kernel region leaves: the message of every edge.

  The region runs the body once per block of 5000 edges, 128 blocks in all.  At block t the body is handed rows
  5000 t … 5000 t + 4999 of the edge features, of the node terms and of the norm products, and the whole weight matrix
  and bias; it stores the block's messages, and the block is written back to rows 5000 t … of the result.  Row p of
  block t is row 5000 t + p of the whole arrays, and a row's message reads nothing of the other rows, so the block
  written back at t is the restriction of ONE array, the message array of the whole operands, to those rows.  The
  blocks cover every row (row r lies in block r / 5000), so after the region the result IS that array.
-/
import proofs.«143380_j2645699854684_1_alg».proof.Proof.Gen.KernelIdeal.Frame
import proofs.«143380_j2645699854684_1_alg».proof.Proof.Block
import Idealize.ShloMosaic.Lib.Pipeline.Value

set_option maxRecDepth 16384

noncomputable section

namespace Cert.KernelIdeal.Region

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.EdgeMessage

variable (m : (ℓ : Loc nD τ sig) → Buf (Elt Ideal) ℓ)

/-- The five arrays the region reads, as it finds them. -/
abbrev feats (c : Dev nD) : S640000x128.Idx → EReal := V m c (Pipeline.arrRef spec0 0)
abbrev nodeTerms (c : Dev nD) : S640000x128.Idx → EReal := V m c (Pipeline.arrRef spec0 1)
abbrev normProds (c : Dev nD) : S640000x1.Idx → EReal := V m c (Pipeline.arrRef spec0 2)
abbrev weights (c : Dev nD) : S128x128.Idx → EReal := V m c (Pipeline.arrRef spec0 3)
abbrev bias (c : Dev nD) : S128.Idx → EReal := V m c (Pipeline.arrRef spec0 4)

/-- The message of every edge, from the arrays as the region finds them. -/
def messages (c : Dev nD) : S640000x128.Idx → EReal :=
  msg (R := 640000) (feats m c) (nodeTerms m c) (normProds m c) (weights m c) (bias m c)

theorem hz2 : (![0, 0] : Fin 2 → Nat) = fun _ => 0 := funext fun a => by fin_cases a <;> rfl
theorem hz1 : (![0] : Fin 1 → Nat) = fun _ => 0 := funext fun a => by fin_cases a <;> rfl

/-- The grid has 128 points. -/
theorem point_lt (t : Fin cfg0.N) : t.val < 128 := lt_of_lt_of_eq t.isLt N_0

/-- The printed index maps, decided over the grid: the three row-indexed inputs and the output take block `t` of the
    rows at point `t`; the weights and the bias are whole at every point. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of block `t` is row `5000 t + p`. -/
abbrev row (t : Fin cfg0.N) (p : Fin 5000) : Fin 640000 := ⟨t.val * 5000 + p.val, by have := point_lt t; omega⟩

/-! ## A window's block read off ANY array

Each lemma reads, through the window's view of its block at point `t`, an arbitrary array `A` of the window's type:
the block's entry is the array's entry at the block's offset. The offsets are the printed index maps', decided above. -/

/-- Window 0 (edge features): entry (p, k) of block `t` is entry (5000 t + p, k). -/
theorem read_feats (A : S640000x128.Idx → EReal) (t : Fin cfg0.N) (p : Fin 5000) (k : Fin 128) :
    ((cfg0.win 0).blk t).view.read (Elt Ideal) A (ix2 p k) = A (ix2 (row t p) k) := by
  obtain ⟨e0, e1, -⟩ := index_maps t
  show A (((cfg0.win 0).blk t).view.emb (ix2 p k)) = A (ix2 (row t p) k)
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1 (node terms): entry (p, j) of block `t` is entry (5000 t + p, j). -/
theorem read_nodeTerms (A : S640000x128.Idx → EReal) (t : Fin cfg0.N) (p : Fin 5000) (j : Fin 128) :
    ((cfg0.win 1).blk t).view.read (Elt Ideal) A (ix2 p j) = A (ix2 (row t p) j) := by
  obtain ⟨-, -, e0, e1, -⟩ := index_maps t
  show A (((cfg0.win 1).blk t).view.emb (ix2 p j)) = A (ix2 (row t p) j)
  refine congrArg A (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * j.val = j.val; omega

/-- Window 2 (norm products): entry (p, 0) of block `t` is entry (5000 t + p, 0). -/
theorem read_normProds (A : S640000x1.Idx → EReal) (t : Fin cfg0.N) (p : Fin 5000) :
    ((cfg0.win 2).blk t).view.read (Elt Ideal) A (ix2 p (0 : Fin 1)) = A (ix2 (row t p) (0 : Fin 1)) := by
  obtain ⟨-, -, -, -, e0, e1, -⟩ := index_maps t
  show A (((cfg0.win 2).blk t).view.emb (ix2 p (0 : Fin 1))) = A (ix2 (row t p) (0 : Fin 1))
  refine congrArg A (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- Window 3 (weights): the block is the whole matrix at every point. -/
theorem read_weights (A : S128x128.Idx → EReal) (t : Fin cfg0.N) (k j : Fin 128) :
    ((cfg0.win 3).blk t).view.read (Elt Ideal) A (ix2 k j) = A (ix2 k j) := by
  obtain ⟨-, -, -, -, -, -, e0, e1, -⟩ := index_maps t
  show A (((cfg0.win 3).blk t).view.emb (ix2 k j)) = A (ix2 k j)
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- Window 4 (bias): the block is the whole vector at every point. -/
theorem read_bias (A : S128.Idx → EReal) (t : Fin cfg0.N) (j : Fin 128) :
    ((cfg0.win 4).blk t).view.read (Elt Ideal) A (ix1 j) = A (ix1 j) := by
  obtain ⟨-, -, -, -, -, -, -, -, e0, -⟩ := index_maps t
  show A (((cfg0.win 4).blk t).view.emb (ix1 j)) = A (ix1 j)
  refine congrArg A (funext fun a => Fin.ext ?_)
  match a with
  | ⟨0, _⟩ => show win0_4.index t (0 : Fin 1) * 128 + 1 * j.val = j.val; omega

/-- Window 5 (the result): entry (p, q) of block `t` is entry (5000 t + p, q). -/
theorem read_result (A : S640000x128.Idx → EReal) (t : Fin cfg0.N) (p : Fin 5000) (q : Fin 128) :
    ((cfg0.win 5).blk t).view.read (Elt Ideal) A (ix2 p q) = A (ix2 (row t p) q) := by
  obtain ⟨-, -, -, -, -, -, -, -, -, e0, e1⟩ := index_maps t
  show A (((cfg0.win 5).blk t).view.emb (ix2 p q)) = A (ix2 (row t p) q)
  refine congrArg A (funext fun a => Fin.ext ?_)
  match a with
  | ⟨0, _⟩ => show win0_5.index t (0 : Fin 2) * 5000 + 1 * p.val = t.val * 5000 + p.val; omega
  | ⟨1, _⟩ => show win0_5.index t (1 : Fin 2) * 128 + 1 * q.val = q.val; omega

/-- Each input window's block at a point is its array read through the window's view. -/
theorem iblk_eq (c : Dev nD) (w : Fin cfg0.W) (t : Fin cfg0.N) :
    iblk m c w t = ((cfg0.win w).blk t).view.read (Elt Ideal) (V m c (Pipeline.arrRef spec0 w)) := rfl

/-- WHAT POINT `t` WRITES BACK is block `t` of the message array. -/
theorem flushed_eq (c : Dev nD) (t : Fin cfg0.N) :
    (dats m 0 c).flushed 5 t = ((cfg0.win 5).blk t).view.read (Elt Ideal) (messages m c) := by
  show (cfg0.win 5).cut (grid0.coords t) ((dats m 0 c).after 5 t) = _
  rw [after0_5]
  unfold out0_5
  rw [View.canon_unit_zero hz2]
  simp only [View.ld_unit_zero (S := S5000x128) hz2, View.ld_unit_zero (S := S128x128) hz2, View.ld_unit_zero (S := S128) hz1,
    View.ld_unit_zero (S := S5000x1) hz2]
  rw [Block.pay_eq]
  funext y
  obtain ⟨p, q, rfl⟩ : ∃ (p : Fin 5000) (q : Fin 128), y = ix2 p q := ⟨y 0, y 1, eq_ix2 y⟩
  show msg (R := 5000) (iblk m c 0 t) (iblk m c 1 t) (iblk m c 2 t) (iblk m c 3 t) (iblk m c 4 t) (ix2 p q)
    = ((cfg0.win 5).blk t).view.read (Elt Ideal) (messages m c) (ix2 p q)
  rw [read_result (messages m c) t p q, iblk_eq, iblk_eq, iblk_eq, iblk_eq, iblk_eq]
  exact msgAt_congr (feats m c) (nodeTerms m c) (normProds m c) _ _ _ (weights m c) _ (bias m c) _ (row t p) p q
    (fun k => read_feats (feats m c) t p k) (read_nodeTerms (nodeTerms m c) t p q) (read_normProds (normProds m c) t p)
    (fun k => read_weights (weights m c) t k q) (read_bias (bias m c) t q)

/-- An index of the result is in point `t`'s block iff its row is one of rows 5000 t … 5000 t + 4999. -/
theorem mem_blk (t : Fin cfg0.N) (i : S640000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v40).slice (win0_5.rect t)).set ↔ _
  rw [View.set_slice_whole, Rect.mem_set_unit]
  exact Iff.rfl

/-- EVERY index of the result is in the block of the point its row divided by 5000 names. -/
theorem cover (i : S640000x128.Idx) : ∃ t : Fin cfg0.N, (cfg0.win 5).flush t = true ∧ i ∈ ((cfg0.win 5).blk t).view.set := by
  have hi0 : (i 0).val < 640000 := idx2_lt0 i
  have hi1 : (i 1).val < 128 := idx2_lt1 i
  let t : Fin cfg0.N := ⟨(i 0).val / 5000, by rw [show cfg0.N = 128 from N_0]; omega⟩
  obtain ⟨-, -, -, -, -, -, -, -, -, e0, e1⟩ := index_maps t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the region is the message array. -/
theorem final (c : Dev nD) : (dats m 0 c).arrAt 5 cfg0.N = messages m c :=
  (dats m 0 c).arrAt_eq_of_cover 5 (messages m c) (fun t _ => flushed_eq m c t) cover

end Cert.KernelIdeal.Region

end
-- ==== Proof.Prefix.lean ====
/-
  What the host lines before the kernel leave in the array of node terms, in the reference's words.

  Before the kernel runs, the program computes on the host q = nfeat · Wq and k = nfeat · Wk, gathers q at dst and k
  at src (negative indices wrapped first) and adds them: the array of node terms.  The reference computes the same
  node terms by the same operations on the same arguments, so the two are one term.
-/
import proofs.«143380_j2645699854684_1_alg».proof.Proof.Gen.KernelIdeal.Frame
import proofs.«143380_j2645699854684_1_alg».proof.Proof.Gen.ReferenceIdeal.Read
import Idealize.ShloMosaic.Lib.StableHlo.Run

set_option maxRecDepth 16384

noncomputable section

namespace Cert.KernelIdeal.Prefix

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ)

/-- The node features, the two index vectors and the two node-side weight matrices as launched. -/
abbrev nfeat (c : Dev nD) : FVec Ideal S10000x128 .f32 := m ((c : Thread nD τ).loc main_arg0)
abbrev src (c : Dev nD) : IVec S640000 32 := m ((c : Thread nD τ).loc main_arg2)
abbrev dst (c : Dev nD) : IVec S640000 32 := m ((c : Thread nD τ).loc main_arg3)
abbrev wq (c : Dev nD) : FVec Ideal S128x128 .f32 := m ((c : Thread nD τ).loc main_arg4)
abbrev wk (c : Dev nD) : FVec Ideal S128x128 .f32 := m ((c : Thread nD τ).loc main_arg5)

set_option maxHeartbeats 4000000 in
/-- THE NODE TERMS the kernel reads are the reference's sum of the two gathered projections. -/
theorem nodeTerms_eq (c : Dev nD) :
    (V m c main_v23 : S640000x128.Idx → EReal)
      = Cert.ReferenceIdeal.Read.val_main_v24 (F := Ideal) (nfeat m c) (src m c) (dst m c) (wq m c) (wk m c) := by
  dsimp only [V, V0]
  simp only [hostOps0, hostOps0_1, hostOps0_2, List.flatten_cons, List.flatten_nil, List.append_nil, List.cons_append,
    List.nil_append]
  after_results_simp
  rfl

end Cert.KernelIdeal.Prefix

end
-- ==== Proof.LibTake.lean ====
/-
  Two takes read at an index.

  * jnp's `y[idx]` over a vector of N entries with a column of R start indices prints as a gather whose one
    start-index component names the entry: result r reads entry `idx r` (read signed, clamped into 0 ... N - 1).
  * jnp's `y[i, j]` over an [N0, N1, C1, C2] table with two index vectors prints as a gather whose start index has two
    components, naming the first two axes, both collapsed; the last two axes are offset axes: result (r, c1, c2) reads
    (idx (r, 0) clamped into 0 ... N0 - 1, idx (r, 1) clamped into 0 ... N1 - 1, c1, c2).
-/
import Mathlib.Logic.Equiv.Defs
import Mathlib.Tactic.Set
import Idealize.ShloMosaic.Lib.StableHlo.Predicate
import Idealize.ShloMosaic.Lib.ValueIdx
import Idealize.ShloMosaic.PureOps.ShapeOps

namespace Cert.LibTake

open Idealize.ShloMosaic Idealize.ShloMosaic.StableHlo.Predicate Idealize.ShloMosaic.ValueIdx

/-- TAKE OF ENTRIES: one collapsed, start-indexed axis; no offset axis. -/
theorem gather_entries {α : Type} {N R w : Nat} (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (r : Fin R) (hN : 0 < N) :
    Host.gather d x idx (ix1 r) = x (ix1 ⟨min (idx (ix2 r 0)).toInt.toNat (N - 1), by omega⟩) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the one axis: collapsed (slice size 1, no offset), no batching; its start is component 0 of the start index,
    -- read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl

/-- TAKE OF BLOCKS AT A PAIR OF INDICES: two collapsed, start-indexed leading axes; the two remaining axes are the
    offset axes, in order. -/
theorem gather_blocks {α : Type} {N0 N1 C1 C2 R w : Nat}
    (d : GatherDims ⟨4, ![N0, N1, C1, C2]⟩ ⟨2, ![R, 2]⟩ ⟨3, ![R, C1, C2]⟩)
    (hoff : d.offsetDims = [1, 2]) (hcoll : d.collapsedSliceDims = [0, 1]) (hob : d.operandBatchingDims = [])
    (hsim : d.startIndexMap = [0, 1]) (hivd : d.indexVectorDim = 1)
    (x : (⟨4, ![N0, N1, C1, C2]⟩ : Shape).Idx → α) (idx : IVec ⟨2, ![R, 2]⟩ w) (r : Fin R) (c1 : Fin C1) (c2 : Fin C2)
    (h0 : 0 < N0) (h1 : 0 < N1) :
    Host.gather d x idx (ix3 r c1 c2)
      = x (ix4 ⟨min (idx (ix2 r 0)).toInt.toNat (N0 - 1), by omega⟩ ⟨min (idx (ix2 r 1)).toInt.toNat (N1 - 1), by omega⟩ c1 c2) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the first axis: collapsed (slice size 1, no offset), no batching; its start is component 0 of the start index,
    -- read at the start-indices index (r, 0) and clamped to [0, N0 − 1]
    have hm : (0 : Fin 4) ∈ [(0 : Fin 4), 1] := by decide
    have hsl : ss 0 = 1 := wf.2.2.2.2.2.2.2.2.2.2.2.1 0 hm
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    show min (idx _).toInt.toNat (N0 - ss 0) = _
    rw [hsl]
    congr 3
    congr 1
    funext b
    apply Fin.ext
    match b with
    | ⟨0, _⟩ => rfl
    | ⟨1, _⟩ => rfl
  | ⟨1, _⟩ =>
    -- the second axis: the same with component 1 of the start index, read at (r, 1) and clamped to [0, N1 − 1]
    have hm : (1 : Fin 4) ∈ [(0 : Fin 4), 1] := by decide
    have hsl : ss 1 = 1 := wf.2.2.2.2.2.2.2.2.2.2.2.1 1 hm
    show GatherDims.start _ _ _ 1 + GatherDims.batchCoord _ _ 1 + GatherDims.offCoord _ _ 1 = min _ _
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    show min (idx _).toInt.toNat (N1 - ss 1) = _
    rw [hsl]
    congr 3
    congr 1
    funext b
    apply Fin.ext
    match b with
    | ⟨0, _⟩ => rfl
    | ⟨1, _⟩ => rfl
  | ⟨2, _⟩ =>
    -- the third axis: not in the start index map (start 0), not batching; the offset coordinate is the result's
    -- coordinate on its first offset axis
    show GatherDims.start _ _ _ 2 + GatherDims.batchCoord _ _ 2 + GatherDims.offCoord _ _ 2 = c1.val
    rw [GatherDims.batchCoord_eq_zero _ _ _ List.not_mem_nil]
    unfold GatherDims.start
    rw [dif_neg (show (2 : Fin 4) ∉ [(0 : Fin 4), 1] by decide)]
    simp only [Nat.zero_add]
    rfl
  | ⟨3, _⟩ =>
    -- the fourth axis: likewise, the result's coordinate on its second offset axis
    show GatherDims.start _ _ _ 3 + GatherDims.batchCoord _ _ 3 + GatherDims.offCoord _ _ 3 = c2.val
    rw [GatherDims.batchCoord_eq_zero _ _ _ List.not_mem_nil]
    unfold GatherDims.start
    rw [dif_neg (show (3 : Fin 4) ∉ [(0 : Fin 4), 1] by decide)]
    simp only [Nat.zero_add]
    rfl

end Cert.LibTake
-- ==== Proof.LibGather.lean ====
/-
  Two gathers and one scatter read at an index.

  * jnp's `take_along_axis (a, idx[:, None], axis = 1)` over an [R × C] table prints as a gather with the row as a
    batching axis: result row r reads column `idx r` (read signed and clamped into the row) of row r.
  * jnp's `y[idx]` over the rows of an [N × C] array prints as a gather whose one start-index component names the
    row and whose offset axis runs over the columns: result (r, c) reads (row `idx r` clamped, c).
  * jnp's `zeros.at[idx].set(v)` over rows prints as a scatter whose body returns the update: when the row numbers
    `idx r` are in range and pairwise distinct, row `idx r` of the result is row r of the updates, and a row that is
    no `idx r` keeps the operand's.
-/
import Mathlib.Logic.Equiv.Defs
import Mathlib.Tactic.Set
import Idealize.ShloMosaic.Lib.StableHlo.Predicate
import Idealize.ShloMosaic.PureOps.ShapeOps

namespace Cert.LibGather

open Idealize.ShloMosaic Idealize.ShloMosaic.StableHlo.Predicate

/-- Entry (r, 0, 0) of an [R × 1 × 1] array of start indices. -/
abbrev ixR11 {R : Nat} (r : Fin R) : (⟨3, ![R, 1, 1]⟩ : Shape).Idx := fun | ⟨0, _⟩ => r | ⟨1, _⟩ => (0 : Fin 1) | ⟨2, _⟩ => (0 : Fin 1)

/-! ## The two gathers

Both proofs read the operand index one operand axis at a time: it is the clamped start plus the batching coordinate
plus the offset coordinate, and with the dimension numbers literal each of the three is a closed term. -/

/-- TAKE ALONG THE SECOND AXIS: the row is a batching axis of both the table and the start indices, the column the one
    collapsed, start-indexed axis, the index vector on the start indices' last axis. -/
theorem gather_along_cols {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (r : Fin R) (hC : 0 < C) :
    Host.gather d x idx (ixP r) = x (ij r ⟨min (idx (ixR11 r)).toInt.toNat (C - 1), by omega⟩) := by
  obtain ⟨od, cd, ob, sb, sm, iv, ss, wf⟩ := d
  simp only at hoff hcoll hob hsb hsim hivd
  subst hoff hcoll hob hsb hsim hivd
  unfold Host.gather
  congr 1
  funext a
  apply Fin.ext
  match a with
  | ⟨0, _⟩ =>
    -- the row: a batching axis, so the start is 0 and there is no offset; the batching coordinate is the
    -- result's coordinate on its batch axis 0, which reads the start indices' axis 0
    show GatherDims.start _ _ _ 0 + GatherDims.batchCoord _ _ 0 + GatherDims.offCoord _ _ 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    -- the column: collapsed (slice size 1, no offset) and not batching; its start is component 0 of the start
    -- index, read at the start-indices index (r, 0, 0) and clamped to [0, C − 1]
    have hsl : ss 1 = 1 := wf.2.2.2.2.2.2.2.2.2.2.2.1 1 (List.mem_singleton.mpr rfl)
    show GatherDims.start _ _ _ 1 + GatherDims.batchCoord _ _ 1 + GatherDims.offCoord _ _ 1 = min _ _
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (C - ss 1) = _
    rw [hsl]
    congr 3
    congr 1
    funext b
    apply Fin.ext
    match b with
    | ⟨0, _⟩ => rfl
    | ⟨1, _⟩ => rfl
    | ⟨2, _⟩ => rfl

/-- TAKE OF ROWS: one collapsed, start-indexed row axis; the columns are the offset axis. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ij r c) = x (ij ⟨min (idx (ixP r)).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the row: collapsed (slice size 1, no offset), no batching; its start is component 0 of the start index,
    -- read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: not in the start index map (start 0), not batching; the offset coordinate is the result's
    -- coordinate on its one offset axis
    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

/-! ## A left fold of point writes, read at one cell

The scatter is a left fold, over the update indices in order, of "write `v n` at the cell `g n` names, if it names
one". Read at a cell `i₀`: if no update names `i₀` the fold leaves it; if some update names it and every update that
names it carries the same value, the fold ends with that value there, whatever the order. The step is kept abstract
(any function with the two defining equations), so that the lemmas apply to the fold as the scatter spells it. -/

/-- A left fold of point writes leaves a cell no write names as it was. -/
theorem foldl_set_miss {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) :
    ∀ (L : List β) (x : ι → α), (∀ n ∈ L, g n ≠ some i₀) → (L.foldl step x) i₀ = x i₀ := by
  intro L
  induction L with
  | nil => intro x _; rfl
  | cons n L ih =>
    intro x h
    rw [List.foldl_cons, ih _ (fun m hm => h m (List.mem_cons_of_mem _ hm))]
    have hn := h n (List.mem_cons_self ..)
    cases hg : g n with
    | none => rw [hnone x n hg]
    | some i =>
      have hne : i₀ ≠ i := fun e => hn (by rw [hg, e])
      rw [hsome x n i hg, if_neg hne]

/-- A left fold of point writes: a cell that some write names, all of whose writers carry the value `a`, ends at `a`.
    By induction on the list: if a later write names the cell, the induction hypothesis applies to the tail from the
    array after the head's step; if none does, the tail leaves the cell as the head's step made it, and the head is
    then the write that names it. -/
theorem foldl_set_hit {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) (a : α) :
    ∀ (L : List β) (x : ι → α), (∃ n ∈ L, g n = some i₀) → (∀ n ∈ L, g n = some i₀ → v n = a) →
      (L.foldl step x) i₀ = a := by
  intro L
  induction L with
  | nil => intro x h; obtain ⟨n, hn, _⟩ := h; cases hn
  | cons n L ih =>
    intro x hex hval
    rw [List.foldl_cons]
    by_cases hL : ∃ m ∈ L, g m = some i₀
    · exact ih _ hL (fun m hm => hval m (List.mem_cons_of_mem _ hm))
    · have hmiss : ∀ m ∈ L, g m ≠ some i₀ := fun m hm e => hL ⟨m, hm, e⟩
      rw [foldl_set_miss g v step hsome hnone i₀ L _ hmiss]
      obtain ⟨m, hm, hgm⟩ := hex
      rcases List.mem_cons.mp hm with rfl | hm'
      · rw [hsome x m i₀ hgm, if_pos rfl]
        exact hval m (List.mem_cons_self ..) hgm
      · exact absurd hgm (hmiss m hm')

/-! ## The scatter of rows -/

/-- Where update (r', c') of a set-of-rows scatter lands: at (row r', c'). On the row axis the start is the scatter
    index of r' (read signed, here the in-range number `row r'`) and the window coordinate 0 (the axis is inserted);
    on the column axis the start is 0 (the map does not name it) and the window coordinate c'. Both are in range. -/
theorem scatter_rows_resultIdx {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w)
    (row : Fin R → Fin N) (hrow : ∀ r, (idx (ixP r)).toInt = ((row r).val : Int))
    (j : (⟨2, ![R, C]⟩ : Shape).Idx) :
    d.resultIdx? j idx = some (ij (row (j 0)) (j 1)) := by
  obtain ⟨uw, iw, sd, iv, wf⟩ := d
  simp only at huw hiw hsd hivd
  subst huw hiw hsd hivd
  set d : ScatterDims ⟨2, ![N, C]⟩ ⟨2, ![R, 1]⟩ ⟨2, ![R, C]⟩ :=
    { updateWindowDims := [1], insertedWindowDims := [0], scatterDimsToOperandDims := [0], indexVectorDim := 1, wf := wf } with hd
  have hs0 : d.start j idx 0 = ((row (j 0)).val : Int) := by
    unfold ScatterDims.start
    rw [dif_pos (List.mem_singleton.mpr rfl)]
    refine Eq.trans ?_ (hrow (j 0))
    congr 2
    funext b
    apply Fin.ext
    match b with
    | ⟨0, _⟩ => rfl
    | ⟨1, _⟩ => rfl
  have hw0 : d.window j 0 = 0 := rfl
  have hs1 : d.start j idx 1 = 0 := rfl
  have hw1 : d.window j 1 = (j 1).val := rfl
  have h : ∀ a, 0 ≤ d.start j idx a + d.window j a ∧ d.start j idx a + d.window j a < (⟨2, ![N, C]⟩ : Shape).size a := by
    intro a
    match a with
    | ⟨0, _⟩ =>
      show 0 ≤ d.start j idx 0 + d.window j 0 ∧ d.start j idx 0 + (d.window j 0 : Int) < (N : Int)
      rw [hs0, hw0]
      have := (row (j 0)).isLt
      omega
    | ⟨1, _⟩ =>
      show 0 ≤ d.start j idx 1 + d.window j 1 ∧ d.start j idx 1 + (d.window j 1 : Int) < (C : Int)
      rw [hs1, hw1]
      have : (j 1).val < C := (j 1).isLt
      omega
  unfold ScatterDims.resultIdx?
  rw [dif_pos h]
  congr 1
  funext a
  apply Fin.ext
  match a with
  | ⟨0, _⟩ =>
    show (d.start j idx 0 + (d.window j 0 : Int)).toNat = (row (j 0)).val
    rw [hs0, hw0]; simp
  | ⟨1, _⟩ =>
    show (d.start j idx 1 + (d.window j 1 : Int)).toNat = (j 1).val
    rw [hs1, hw1]; simp

/-- SET OF ROWS at in-range, pairwise distinct row numbers: row `row r` of the result is row r of the updates.
    Update (r, c) lands on (row r, c); an update (r', c') that lands there has row r' = row r and c' = c, so it is
    update (r, c) itself since `row` is injective: every writer of the cell carries `upd (r, c)`. -/
theorem scatter_rows_hit {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int)) (hinj : Function.Injective row)
    (r : Fin R) (c : Fin C) :
    Host.scatter d (fun _ b => b) x idx upd (ij (row r) c) = upd (ij r c) := by
  have hres := scatter_rows_resultIdx d huw hiw hsd hivd idx row hrow
  unfold Host.scatter
  refine foldl_set_hit (fun n => d.resultIdx? ((⟨2, ![R, C]⟩ : Shape).rowMajor.symm n) idx)
    (fun n => upd ((⟨2, ![R, C]⟩ : Shape).rowMajor.symm n)) _ ?_ ?_ (ij (row r) c) (upd (ij r c)) _ x ?_ ?_
  · intro r n i h i'
    simp only [h]
  · intro r n h
    simp only [h]
  · refine ⟨(⟨2, ![R, C]⟩ : Shape).rowMajor (ij r c), List.mem_finRange _, ?_⟩
    show d.resultIdx? ((⟨2, ![R, C]⟩ : Shape).rowMajor.symm ((⟨2, ![R, C]⟩ : Shape).rowMajor (ij r c))) idx = _
    rw [Equiv.symm_apply_apply, hres]
    rfl
  · intro n _ hn
    show upd ((⟨2, ![R, C]⟩ : Shape).rowMajor.symm n) = upd (ij r c)
    have hn' : d.resultIdx? ((⟨2, ![R, C]⟩ : Shape).rowMajor.symm n) idx = some (ij (row r) c) := hn
    rw [hres] at hn'
    have he := Option.some.inj hn'
    have h0 : row (((⟨2, ![R, C]⟩ : Shape).rowMajor.symm n) 0) = row r := congrFun he 0
    have h1 : ((⟨2, ![R, C]⟩ : Shape).rowMajor.symm n) 1 = c := congrFun he 1
    rw [← ij_eta ((⟨2, ![R, C]⟩ : Shape).rowMajor.symm n)]
    congr 2
    exact hinj h0

/-- SET OF ROWS, a row no update names: it keeps the operand's. (Injectivity of `row` is not needed here.) -/
theorem scatter_rows_miss {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int))
    (ρ : Fin N) (hρ : ∀ r, row r ≠ ρ) (c : Fin C) :
    Host.scatter d (fun _ b => b) x idx upd (ij ρ c) = x (ij ρ c) := by
  have hres := scatter_rows_resultIdx d huw hiw hsd hivd idx row hrow
  unfold Host.scatter
  refine foldl_set_miss (fun n => d.resultIdx? ((⟨2, ![R, C]⟩ : Shape).rowMajor.symm n) idx)
    (fun n => upd ((⟨2, ![R, C]⟩ : Shape).rowMajor.symm n)) _ ?_ ?_ (ij ρ c) _ x ?_
  · intro r n i h i'
    simp only [h]
  · intro r n h
    simp only [h]
  · intro n _ hn
    have hn' : d.resultIdx? ((⟨2, ![R, C]⟩ : Shape).rowMajor.symm n) idx = some (ij ρ c) := hn
    rw [hres] at hn'
    exact hρ _ (congrFun (Option.some.inj hn') 0)

end Cert.LibGather
-- ==== Proof.NormProd.lean ====
/-
  What the host lines before the kernel leave in the array of norm products, in the reference's words.

  The program counts each node's in-degree by a scatter-add of ones at dst, clamps the count below by one and raises it
  to the power -1/2: the norm, a vector over the 10000 nodes.  It gathers the norm at src and at dst (negative indices
  wrapped first), multiplies the two and views the product as a column of 640000 entries: the norm products.  The
  reference first views the norm as a one-column table and gathers ROWS of that table at the same wrapped indices.  A
  row gather of a one-column table and an entry gather of the vector behind it clamp the same start index into the
  same range 0 … 9999 and read the same entry, so edge by edge the two products are equal.
-/
import proofs.«143380_j2645699854684_1_alg».proof.Proof.Gen.KernelIdeal.Frame
import proofs.«143380_j2645699854684_1_alg».proof.Proof.Gen.ReferenceIdeal.Read
import proofs.«143380_j2645699854684_1_alg».proof.Proof.LibTake
import proofs.«143380_j2645699854684_1_alg».proof.Proof.LibGather
import proofs.«143380_j2645699854684_1_alg».proof.Proof.LibColumn
import Idealize.ShloMosaic.Lib.StableHlo.Run

set_option maxRecDepth 16384

noncomputable section

namespace Cert.KernelIdeal.NormProd

open Idealize.ShloMosaic Idealize.ShloMosaic.TcCoe Idealize.ShloMosaic.ValueIdx Idealize.ShloMosaic.StableHlo
open Idealize.SL.Sem
open Cert.KernelIdeal Cert.KernelIdeal.Gen

/-- The norm of every node from the destination indices: the in-degree (a scatter-add of ones into zeros), clamped
    below by one, to the power -1/2. -/
def norm (x3 : IVec S640000 32) : FVec Ideal S10000 .f32 :=
  Host.powf
    (maximumf (broadcastInDim S10000 ![] Gen.bcast_S_S10000 (id (constant S_ .f32 0x3F800000#32)))
      (Host.scatterAdd scatter_S10000_S640000x1_S640000_n_0_0_1
        (broadcastInDim S10000 ![] Gen.bcast_S_S10000 (constant S_ .f32 0x00000000#32))
        (broadcastInDim S640000x1 ![0] Gen.bcast_S640000_S640000x1_0 x3)
        (broadcastInDim S640000 ![] Gen.bcast_S_S640000 (constant S_ .f32 0x3F800000#32))))
    (broadcastInDim S10000 ![] Gen.bcast_S_S10000 (constant S_ .f32 0xBF000000#32))

/-- An index vector with its negative entries wrapped by 10000, as a column of start indices. -/
def wrapped (x : IVec S640000 32) : IVec S640000x1 32 :=
  broadcastInDim S640000x1 ![0] Gen.bcast_S640000_S640000x1_0
    (select (cmpi .slt x (broadcastInDim S640000 ![] Gen.bcast_S_S640000 (constantI S_ 32 0#32)))
      (addi x (broadcastInDim S640000 ![] Gen.bcast_S_S640000 (constantI S_ 32 10000#32))) x)

/-- The reference computes the same norm (its stage 6) and the same wrapped columns (its stages 36 and 43). -/
theorem norm_eq (x3 : IVec S640000 32) : norm x3 = Cert.ReferenceIdeal.Read.val_main_v6 (F := Ideal) x3 := rfl
theorem wrapped_eq_src (x : IVec S640000 32) : wrapped x = Cert.ReferenceIdeal.Read.val_main_v36 (F := Ideal) x := rfl
theorem wrapped_eq_dst (x : IVec S640000 32) : wrapped x = Cert.ReferenceIdeal.Read.val_main_v43 (F := Ideal) x := rfl

/-- A ROW gather of a vector viewed as a one-column table reads what an ENTRY gather of the vector reads: both clamp
    the start index `idx (e, 0)`, read signed, into 0 … 9999, and the column view at (r, 0) is the vector at r. -/
theorem gather_column (n : FVec Ideal S10000 .f32) (idx : IVec S640000x1 32) (e : Fin 640000) (u : Fin 1) :
    Host.gather Cert.ReferenceIdeal.gather_S10000x1_S640000x1_S640000x1_1_0_n_n_0_1_11
        (broadcastInDim Cert.ReferenceIdeal.S10000x1 ![0] Cert.ReferenceIdeal.Gen.bcast_S10000_S10000x1_0 n) idx (ix2 e u)
      = Host.gather gather_S10000_S640000x1_S640000_n_0_n_n_0_1_1 n idx (ix1 e) := by
  have h1 := Cert.LibTake.gather_entries gather_S10000_S640000x1_S640000_n_0_n_n_0_1_1 rfl rfl rfl rfl rfl n idx e
    (by decide)
  have h2 := Cert.LibGather.gather_rows Cert.ReferenceIdeal.gather_S10000x1_S640000x1_S640000x1_1_0_n_n_0_1_11 rfl rfl rfl
    rfl rfl (broadcastInDim Cert.ReferenceIdeal.S10000x1 ![0] Cert.ReferenceIdeal.Gen.bcast_S10000_S10000x1_0 n) idx e u
    (by decide)
  rw [h1]
  refine h2.trans ?_
  exact broadcastInDim_apply _ Cert.ReferenceIdeal.Gen.bcast_S10000_S10000x1_0 n _ _ (fun a => match a with
    | ⟨0, _⟩ => by
      show min (idx (ix2 e 0)).toInt.toNat (10000 - 1) = if (10000 : Nat) = 1 then 0 else min (idx (StableHlo.Predicate.ixP e)).toInt.toNat (10000 - 1)
      rw [if_neg (by decide)]
      exact congrArg (fun y : S640000x1.Idx => min (idx y).toInt.toNat (10000 - 1))
        (funext fun b => by match b with | ⟨0, _⟩ => rfl | ⟨1, _⟩ => rfl))

variable (m : (ℓ : Loc nD τ sig) → Buf (Elt Ideal) ℓ)

/-- The two index vectors as launched. -/
abbrev src (c : Dev nD) : IVec S640000 32 := m ((c : Thread nD τ).loc main_arg2)
abbrev dst (c : Dev nD) : IVec S640000 32 := m ((c : Thread nD τ).loc main_arg3)

set_option maxHeartbeats 4000000 in
/-- The norm products as the host lines leave them: the product of the two entry gathers of the norm, viewed as a
    column. -/
theorem normProd_term (c : Dev nD) :
    (V m c main_v39 : S640000x1.Idx → EReal)
      = shapeCast S640000x1
          (mulf (F := Ideal)
            (Host.gather gather_S10000_S640000x1_S640000_n_0_n_n_0_1_1 (norm (dst m c)) (wrapped (src m c)) : FVec Ideal S640000 .f32)
            (Host.gather gather_S10000_S640000x1_S640000_n_0_n_n_0_1_1 (norm (dst m c)) (wrapped (dst m c)) : FVec Ideal S640000 .f32))
          Gen.shapeCasts_S640000_S640000x1 := by
  dsimp only [V, V0]
  simp only [hostOps0, hostOps0_1, hostOps0_2, List.flatten_cons, List.flatten_nil, List.append_nil, List.cons_append,
    List.nil_append]
  after_results_simp
  rfl

/-- THE NORM PRODUCTS the kernel reads are the reference's product of the two row gathers of the norm column (its
    stage 45). -/
theorem normProd_eq (c : Dev nD) :
    (V m c main_v39 : S640000x1.Idx → EReal)
      = Cert.ReferenceIdeal.Read.val_main_v45 (F := Ideal) (src m c) (dst m c) := by
  rw [normProd_term]
  funext i
  obtain ⟨e, u, rfl⟩ : ∃ (e : Fin 640000) (u : Fin 1), i = ix2 e u := ⟨i 0, i 1, eq_ix2 i⟩
  rw [Cert.LibColumn.shapeCast_a_a1_apply, norm_eq, wrapped_eq_src, wrapped_eq_dst]
  show _ * _ = Host.gather _ (broadcastInDim _ _ _ _) _ (ix2 e u) * Host.gather _ (broadcastInDim _ _ _ _) _ (ix2 e u)
  rw [gather_column, gather_column]

end Cert.KernelIdeal.NormProd

end
-- ==== Proof.RefMessage.lean ====
/-
  The reference's message array, read at an entry.

  The reference computes, over all 640000 edges at once, the gathered node terms plus the product of the edge features
  by the weights plus the bias, rectifies the sum, and multiplies by the product of the two gathered norms repeated
  along the features.  Read at edge e and feature j, stage by stage, that is

      max (nodeTerms(e, j) + Σₖ efeat(e, k) · We(k, j) + b(j), 0) · normProds(e, 0):

  the edge message whose operands are the whole arrays, the node terms and the norm products taken as the reference's
  own earlier stages.
-/
import proofs.«143380_j2645699854684_1_alg».proof.Proof.Gen.ReferenceIdeal.Read
import proofs.«143380_j2645699854684_1_alg».proof.Proof.Message

noncomputable section

namespace Cert.ReferenceIdeal.Messages

open Idealize.ShloMosaic Idealize.ShloMosaic.ValueIdx
open Cert.ReferenceIdeal Cert.ReferenceIdeal.Read Cert.EdgeMessage

/-- THE REFERENCE'S MESSAGES are the message array of the edge features, its node terms (stage 24), its norm products
    (stage 45), the weights and the bias. -/
theorem messages_eq (x0 : FVec Ideal S10000x128 .f32) (x1 : FVec Ideal S640000x128 .f32) (x2 x3 : IVec S640000 32)
    (x4 x5 x6 : FVec Ideal S128x128 .f32) (x7 : FVec Ideal S128 .f32) :
    val_main_v47 (F := Ideal) x0 x1 x2 x3 x4 x5 x6 x7
      = msg (R := 640000) x1 (val_main_v24 (F := Ideal) x0 x2 x3 x4 x5) (val_main_v45 (F := Ideal) x2 x3) x6 x7 := by
  funext i
  obtain ⟨e, j, rfl⟩ : ∃ (e : Fin 640000) (j : Fin 128), i = ix2 e j := ⟨i 0, i 1, eq_ix2 i⟩
  -- which entries of the operands the stages read at (e, j)
  have hl : ∀ k : Fin 128, lidx_main_v25 (ix2 e j) k = ix2 e k := fun k =>
    funext fun a => by match a with | ⟨0, _⟩ => rfl | ⟨1, _⟩ => rfl
  have hr : ∀ k : Fin 128, ridx_main_v25 (ix2 e j) k = ix2 k j := fun k =>
    funext fun a => by match a with | ⟨0, _⟩ => rfl | ⟨1, _⟩ => rfl
  have hb : idx_main_v27 (idx_main_v28 (ix2 e j)) = ix1 j :=
    funext fun a => by match a with | ⟨0, _⟩ => rfl
  have hn : idx_main_v46 (ix2 e j) = ix2 e (0 : Fin 1) :=
    funext fun a => by match a with | ⟨0, _⟩ => rfl | ⟨1, _⟩ => rfl
  rw [val_main_v47_apply, val_main_v30_apply, val_main_v29_apply, val_main_v26_apply, val_main_v25_apply,
    val_main_v28_apply, val_main_v27_apply, val_main_call1_v0_apply, val_main_call1_cst_apply, val_main_v46_apply,
    msg_apply, hb, hn]
  unfold msgAt
  rw [Finset.sum_congr rfl fun k _ => by rw [hl k, hr k]]
  rfl

end Cert.ReferenceIdeal.Messages

end
-- ==== Proof.KernelRun.lean ====
/-
  The kernel program's run, read: what its result array holds.

  After the region the program scatter-adds the message array into zeros at the destination indices: the result.  The
  region leaves the message array of the arrays it found (the edge features, the weights and the bias as launched; the
  node terms and the norm products as the host lines before it computed them), and those are, array by array, the
  operands of the reference's own message stage.  So the result is the reference's closing scatter-add applied to the
  reference's message stage of the same arguments.
-/
import proofs.«143380_j2645699854684_1_alg».proof.Proof.Region
import proofs.«143380_j2645699854684_1_alg».proof.Proof.Prefix
import proofs.«143380_j2645699854684_1_alg».proof.Proof.NormProd
import proofs.«143380_j2645699854684_1_alg».proof.Proof.RefMessage
import Idealize.ShloMosaic.Lib.StableHlo.Run

set_option maxRecDepth 16384

noncomputable section

namespace Cert.KernelIdeal.Result

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (ρ : Dev nD → PrngReg)

/-- The eight arguments as launched. -/
abbrev nfeat (c : Dev nD) : FVec Ideal S10000x128 .f32 := m ((c : Thread nD τ).loc main_arg0)
abbrev efeat (c : Dev nD) : FVec Ideal S640000x128 .f32 := m ((c : Thread nD τ).loc main_arg1)
abbrev src (c : Dev nD) : IVec S640000 32 := m ((c : Thread nD τ).loc main_arg2)
abbrev dst (c : Dev nD) : IVec S640000 32 := m ((c : Thread nD τ).loc main_arg3)
abbrev wq (c : Dev nD) : FVec Ideal S128x128 .f32 := m ((c : Thread nD τ).loc main_arg4)
abbrev wk (c : Dev nD) : FVec Ideal S128x128 .f32 := m ((c : Thread nD τ).loc main_arg5)
abbrev we (c : Dev nD) : FVec Ideal S128x128 .f32 := m ((c : Thread nD τ).loc main_arg6)
abbrev b (c : Dev nD) : FVec Ideal S128 .f32 := m ((c : Thread nD τ).loc main_arg7)

/-- THE MESSAGES the region leaves are the reference's message stage of the arguments. -/
theorem messages_eq_ref (c : Dev nD) :
    Region.messages m c
      = Cert.ReferenceIdeal.Read.val_main_v47 (F := Ideal) (nfeat m c) (efeat m c) (src m c) (dst m c) (wq m c) (wk m c)
          (we m c) (b m c) := by
  have h0 : Region.feats m c = efeat m c := V_main_arg1 m c
  have h1 : Region.nodeTerms m c
      = Cert.ReferenceIdeal.Read.val_main_v24 (F := Ideal) (nfeat m c) (src m c) (dst m c) (wq m c) (wk m c) :=
    Prefix.nodeTerms_eq m c
  have h2 : Region.normProds m c = Cert.ReferenceIdeal.Read.val_main_v45 (F := Ideal) (src m c) (dst m c) :=
    NormProd.normProd_eq m c
  have h3 : Region.weights m c = we m c := V_main_arg6 m c
  have h4 : Region.bias m c = b m c := V_main_arg7 m c
  rw [Cert.ReferenceIdeal.Messages.messages_eq]
  unfold Region.messages
  rw [h0, h1, h2, h3, h4]

/-- The lines after the region: the result is the scatter-add of the region's array into zeros at dst. -/
theorem tail_eq (c : Dev nD) :
    (Pipeline.afterTail₀ cfgs (dats m) 0 (V0 m) [hostOps1] c main_v43 : S10000x128.Idx → EReal)
      = Host.scatterAdd (F := Ideal) scatter_S10000x128_S640000x1_S640000x128_1_0_0_1
          (broadcastInDim S10000x128 ![] Gen.bcast_S_S10000x128 (constant S_ .f32 0x00000000#32))
          (broadcastInDim S640000x1 ![0] Gen.bcast_S640000_S640000x1_0 (dst m c))
          (Region.messages m c) := by
  unfold Pipeline.afterTail₀
  show StableHlo.after hostOps1 _ (Proc.devRef .tc main_v43) = _
  after_results
  have hd : Pipeline.withArrays (cfgs 0).spec c (V0 m c) (fun w => (dats m 0 c).arrAt w (cfgs 0).N) (Proc.devRef .tc main_arg3)
      = dst m c :=
    (Pipeline.withArrays_of_ne _ c (V0 m c) _ main_arg3 (by exact (by decide : ∀ w, Pipeline.arrRef spec0 w ≠ main_arg3))).trans
      (V_main_arg3 m c)
  have hm : Pipeline.withArrays (cfgs 0).spec c (V0 m c) (fun w => (dats m 0 c).arrAt w (cfgs 0).N) (Proc.devRef .tc main_v40)
      = Region.messages m c :=
    (Pipeline.withArrays_arr spec0 launch0.win.arr_inj c _ _ 5).trans (Region.final m c)
  rw [hd, hm]

/-- The closing scatter-add of the messages is the reference's result stage of the arguments. -/
theorem result_eq_ref (c : Dev nD) :
    Host.scatterAdd (F := Ideal) scatter_S10000x128_S640000x1_S640000x128_1_0_0_1
        (broadcastInDim S10000x128 ![] Gen.bcast_S_S10000x128 (constant S_ .f32 0x00000000#32))
        (broadcastInDim S640000x1 ![0] Gen.bcast_S640000_S640000x1_0 (dst m c))
        (Region.messages m c)
      = Cert.ReferenceIdeal.Read.val_main_v50 (F := Ideal) (nfeat m c) (efeat m c) (src m c) (dst m c) (wq m c) (wk m c)
          (we m c) (b m c) := by
  rw [messages_eq_ref]
  rfl

/-- THE RUN, READ: every weakly fair execution of the kernel program terminates with its result array at the
    reference's result stage of the arguments as launched, and the arguments unchanged. -/
theorem run : θ_run defs (onTc (τ := τ) (main (F := Ideal))) ⟨m, fun _ => 0, ρ⟩ fun r => ∀ c : Dev nD,
      r.2.mem ((c : Thread nD τ).loc main_v43)
        = Cert.ReferenceIdeal.Read.val_main_v50 (F := Ideal) (nfeat m c) (efeat m c) (src m c) (dst m c) (wq m c) (wk m c)
            (we m c) (b m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨(((h c).2 main_v43 (Pipeline.mem_restRefs_of main_v43 (by decide) (by decide))).trans (tail_eq m c)).trans
        (result_eq_ref m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩)
    (run_main m ρ)

end Cert.KernelIdeal.Result

end
-- ==== Proof.lean ====
/-
  Message passing over a graph: the kernel program against its reference, over the extended reals.

  Both programs compute, for every node, the sum over its incoming edges of the edge's message

      msg(e, ·) = max (q[dst e] + k[src e] + efeat(e, ·) · We + b, 0) · norm[src e] · norm[dst e],

  where q = nfeat · Wq, k = nfeat · Wk and norm is the in-degree, clamped below by one, to the power -1/2.  The kernel
  program computes the node terms q[dst] + k[src] and the norm products on the host, runs the messages block by block
  in a kernel of 128 blocks of 5000 edges (the product with We on the matrix unit from operands narrowed to bf16, which
  over the extended reals is the same sum of products), and scatter-adds the messages on the host.  The reference
  does everything on the host in whole arrays, and gathers the norm through a one-column view.

  The two results are the SAME closing scatter-add applied to message arrays that are equal entry by entry
  (Region.lean: the kernel's blocks are the restrictions of one array; RefMessage.lean: the reference's stage at an
  entry; Prefix.lean and NormProd.lean: the host-computed operands agree), so no law of the extended reals beyond
  reading both sides at an index is used, and finiteness of the inputs is not needed.  Nothing was rewritten when the
  kernel was idealized, so the idealization claim is trivial; the three frames are the generated ones (the reference's
  is its run with the result forgotten).
-/
import proofs.«143380_j2645699854684_1_alg».proof.Defs
import proofs.«143380_j2645699854684_1_alg».proof.Proof.Gen.Kernel
import proofs.«143380_j2645699854684_1_alg».proof.Proof.Gen.Kernel.Skeleton
import proofs.«143380_j2645699854684_1_alg».proof.Proof.Gen.Kernel.Launch
import proofs.«143380_j2645699854684_1_alg».proof.Proof.Gen.Kernel.Points
import proofs.«143380_j2645699854684_1_alg».proof.Proof.Gen.Kernel.Frame
import proofs.«143380_j2645699854684_1_alg».proof.Proof.Gen.KernelIdeal
import proofs.«143380_j2645699854684_1_alg».proof.Proof.Gen.KernelIdeal.Skeleton
import proofs.«143380_j2645699854684_1_alg».proof.Proof.Gen.KernelIdeal.Launch
import proofs.«143380_j2645699854684_1_alg».proof.Proof.Gen.KernelIdeal.Points
import proofs.«143380_j2645699854684_1_alg».proof.Proof.Gen.KernelIdeal.Frame
import proofs.«143380_j2645699854684_1_alg».proof.Proof.Gen.ReferenceIdeal
import proofs.«143380_j2645699854684_1_alg».proof.Proof.Gen.Pre_finite_inputs
import proofs.«143380_j2645699854684_1_alg».proof.Proof.Gen.ReferenceIdeal.Run
import proofs.«143380_j2645699854684_1_alg».proof.Proof.Gen.ReferenceIdeal.Read
import proofs.«143380_j2645699854684_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run, with what it says of the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the arguments both programs end with the reference's result stage of those
    arguments: the kernel program by its run read back (KernelRun.lean), the reference by its own run. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
